-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x1024x1024 : Shape := ⟨4, ![16, 4, 1024, 1024]⟩
abbrev S_ : Shape := ⟨0, ![]⟩

class Facts : Prop where
  bcast_S_S16x4x1024x1024 : S_.BroadcastsInDim S16x4x1024x1024 (![] : Fin 0 → Fin S16x4x1024x1024.rank)
  reducesTo_S16x4x1024x1024_S_d0_1_2_3 : S16x4x1024x1024.ReducesTo [0, 1, 2, 3] S_
  h_S_ : 0 < S_.numel

variable [Facts]

def fn {F : FTy → Type} [FloatOps F] (main_arg0 : FVec F S16x4x1024x1024 .f32) : IVec S_ 1 :=
  let main_v0 : FVec F S16x4x1024x1024 .f32 := Host.absf main_arg0
  let main_cst : FVec F S_ .f32 := constant S_ .f32 0x7F800000#32
  let main_v1 : FVec F S16x4x1024x1024 .f32 := broadcastInDim S16x4x1024x1024 ![] bcast_S_S16x4x1024x1024 main_cst
  let main_v2 : IVec S16x4x1024x1024 1 := cmpf .olt main_v0 main_v1
  let main_c : IVec S_ 1 := constantI S_ 1 1#1
  let main_v3 : IVec S_ 1 := (fun x v => Host.reduce IntOp.andi x v reducesTo_S16x4x1024x1024_S_d0_1_2_3 h_S_) main_v2 main_c
  main_v3
-- ==== Kernel.lean ====
abbrev S16x4x1024x1024 : Shape := ⟨4, ![16, 4, 1024, 1024]⟩
abbrev S16x1x2048x2048 : Shape := ⟨4, ![16, 1, 2048, 2048]⟩
abbrev S1x4x512x128 : Shape := ⟨4, ![1, 4, 512, 128]⟩
abbrev S1x1x1024x256 : Shape := ⟨4, ![1, 1, 1024, 256]⟩
abbrev S4x512x128 : Shape := ⟨3, ![4, 512, 128]⟩
abbrev S2x2x512x128 : Shape := ⟨4, ![2, 2, 512, 128]⟩
abbrev S512x2x128x2 : Shape := ⟨4, ![512, 2, 128, 2]⟩
abbrev S1024x256 : Shape := ⟨2, ![1024, 256]⟩
abbrev S1x512x128 : Shape := ⟨3, ![1, 512, 128]⟩
abbrev S512x128 : Shape := ⟨2, ![512, 128]⟩

abbrev nBuf : Space → Nat
  | .hbm => 3
  | .vmem => 8
  | .smem => 0
  | _ => 0

abbrev bufTy : (tb : Table) → Fin (tcTables nBuf tb) → BufTy
  | .hbm, ⟨0, _⟩ => ⟨S16x4x1024x1024, .f32⟩
  | .hbm, ⟨1, _⟩ => ⟨S16x1x2048x2048, .f32⟩
  | .hbm, ⟨2, _⟩ => ⟨S16x1x2048x2048, .f32⟩
  | .local _ .vmem, ⟨0, _⟩ => ⟨S1x4x512x128, .f32⟩
  | .local _ .vmem, ⟨1, _⟩ => ⟨S1x4x512x128, .f32⟩
  | .local _ .vmem, ⟨2, _⟩ => ⟨S1x4x512x128, .f32⟩
  | .local _ .vmem, ⟨3, _⟩ => ⟨S1x4x512x128, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | _, _ => ⟨S16x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x4x512x128_S1x4x512x128_0_0_0_0 : ∀ a, (![0, 0, 0, 0] : Fin 4 → Nat) a + S1x4x512x128.size a ≤ S1x4x512x128.size a
  h_S1x4x512x128 : 0 < S1x4x512x128.numel
  shapeCasts_S1x4x512x128_S4x512x128 : S1x4x512x128.ShapeCasts S4x512x128
  shapeCasts_S4x512x128_S2x2x512x128 : S4x512x128.ShapeCasts S2x2x512x128
  transposes_S2x2x512x128_p2_1_3_0_S512x2x128x2 : S2x2x512x128.Transposes [2, 1, 3, 0] S512x2x128x2
  shapeCasts_S512x2x128x2_S1024x256 : S512x2x128x2.ShapeCasts S1024x256
  inb_S1x1x1024x256_S1x1x1024x256_0_0_0_0 : ∀ a, (![0, 0, 0, 0] : Fin 4 → Nat) a + S1x1x1024x256.size a ≤ S1x1x1024x256.size a
  h_S1x1x1024x256 : 0 < S1x1x1024x256.numel
  shapeCasts_S1x1x1024x256_S1024x256 : S1x1x1024x256.ShapeCasts S1024x256
  shapeCasts_S1024x256_S1x1x1024x256 : S1024x256.ShapeCasts S1x1x1024x256
  slices_S4x512x128_o0_0_0_S1x512x128 : S4x512x128.Slices ![0, 0, 0] S1x512x128
  shapeCasts_S1x512x128_S512x128 : S1x512x128.ShapeCasts S512x128
  slices_S4x512x128_o1_0_0_S1x512x128 : S4x512x128.Slices ![1, 0, 0] S1x512x128
  slices_S4x512x128_o2_0_0_S1x512x128 : S4x512x128.Slices ![2, 0, 0] S1x512x128
  shapeCasts_S512x128_S1x512x128 : S512x128.ShapeCasts S1x512x128
  concatenates_S1x512x128_S1x512x128_S1x512x128_S1x512x128_S4x512x128_d0 : Shape.Concatenates [S1x512x128, S1x512x128, S1x512x128, S1x512x128] S4x512x128 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x128.size a ≤ S16x4x1024x1024.size a
  hwx0_0 : ∀ i : grid0.Coords, EltTy.bits .f32 = 32 ∨ (Rect.block (s := S16x4x1024x1024) S1x4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x128.size a ≤ S16x4x1024x1024.size a
  hwx0_1 : ∀ i : grid0.Coords, EltTy.bits .f32 = 32 ∨ (Rect.block (s := S16x4x1024x1024) S1x4x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x256.size a ≤ S16x1x2048x2048.size a
  hwx0_2 : ∀ i : grid0.Coords, EltTy.bits .f32 = 32 ∨ (Rect.block (s := S16x1x2048x2048) S1x1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x256.size a ≤ S16x1x2048x2048.size a
  hwx0_3 : ∀ i : grid0.Coords, EltTy.bits .f32 = 32 ∨ (Rect.block (s := S16x1x2048x2048) S1x1x1024x256.size (cc0_transform_3 i) (hinb0_3 i)).WholeWords (EltTy.packing .f32)

variable [Facts₀]

abbrev win0_0 : Pipeline.Window sig grid0 :=
  Pipeline.Window.ofSpec (Memref.whole main_arg0) S1x4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4x1024x1024 : Shape := ⟨4, ![16, 4, 1024, 1024]⟩
abbrev S16x2x2x1024x1024 : Shape := ⟨5, ![16, 2, 2, 1024, 1024]⟩
abbrev S16x1024x2x1024x2 : Shape := ⟨5, ![16, 1024, 2, 1024, 2]⟩
abbrev S16x2048x2048 : Shape := ⟨3, ![16, 2048, 2048]⟩
abbrev S16x1x2048x2048 : Shape := ⟨4, ![16, 1, 2048, 2048]⟩
abbrev S1x1x1024x1024 : Shape := ⟨4, ![1, 1, 1024, 1024]⟩
abbrev S1024x1024 : Shape := ⟨2, ![1024, 1024]⟩
abbrev S_ : Shape := ⟨0, ![]⟩
abbrev S1x1024x1024 : Shape := ⟨3, ![1, 1024, 1024]⟩
abbrev S4x1024x1024 : Shape := ⟨3, ![4, 1024, 1024]⟩
abbrev S2x2x1024x1024 : Shape := ⟨4, ![2, 2, 1024, 1024]⟩
abbrev S1024x2x1024x2 : Shape := ⟨4, ![1024, 2, 1024, 2]⟩
abbrev S2048x2048 : Shape := ⟨2, ![2048, 2048]⟩
abbrev S1x1x2048x2048 : Shape := ⟨4, ![1, 1, 2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x4x1024x1024, .f32⟩
  | .hbm, ⟨1, _⟩ => ⟨S16x2x2x1024x1024, .f32⟩
  | .hbm, ⟨2, _⟩ => ⟨S16x1024x2x1024x2, .f32⟩
  | .hbm, ⟨3, _⟩ => ⟨S16x2048x2048, .f32⟩
  | .hbm, ⟨4, _⟩ => ⟨S16x1x2048x2048, .f32⟩
  | .hbm, ⟨5, _⟩ => ⟨S1x1x1024x1024, .f32⟩
  | .hbm, ⟨6, _⟩ => ⟨S1024x1024, .f32⟩
  | .hbm, ⟨7, _⟩ => ⟨S1x1x1024x1024, .f32⟩
  | .hbm, ⟨8, _⟩ => ⟨S1024x1024, .f32⟩
  | .hbm, ⟨9, _⟩ => ⟨S1x1x1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S4x1024x1024, .f32⟩
  | .hbm, ⟨39, _⟩ => ⟨S2x2x1024x1024, .f32⟩
  | .hbm, ⟨40, _⟩ => ⟨S1024x2x1024x2, .f32⟩
  | .hbm, ⟨41, _⟩ => ⟨S2048x2048, .f32⟩
  | .hbm, ⟨42, _⟩ => ⟨S1x1x2048x2048, .f32⟩
  | .hbm, ⟨43, _⟩ => ⟨S16x1x2048x2048, .f32⟩
  | _, _ => ⟨S16x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]

class Facts₀ : Prop where
  shapeCasts_S16x4x1024x1024_S16x2x2x1024x1024 : S16x4x1024x1024.ShapeCasts S16x2x2x1024x1024
  transposes_S16x2x2x1024x1024_S16x1024x2x1024x2_0_3_2_4_1 : S16x2x2x1024x1024.Transposes [0, 3, 2, 4, 1] S16x1024x2x1024x2
  shapeCasts_S16x1024x2x1024x2_S16x2048x2048 : S16x1024x2x1024x2.ShapeCasts S16x2048x2048
  bcast_S16x2048x2048_S16x1x2048x2048_0_2_3 : S16x2048x2048.BroadcastsInDim S16x1x2048x2048 (![0, 2, 3] : Fin 3 → Fin S16x1x2048x2048.rank)
  slices_S16x4x1024x1024_S1x1x1024x1024_0_0_0_0 : S16x4x1024x1024.Slices ![0, 0, 0, 0] S1x1x1024x1024
  shapeCasts_S1x1x1024x1024_S1024x1024 : S1x1x1024x1024.ShapeCasts S1024x1024
  slices_S16x4x1024x1024_S1x1x1024x1024_0_1_0_0 : S16x4x1024x1024.Slices ![0, 1, 0, 0] S1x1x1024x1024
  slices_S16x4x1024x1024_S1x1x1024x1024_0_2_0_0 : S16x4x1024x1024.Slices ![0, 2, 0, 0] S1x1x1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  shapeCasts_S4x1024x1024_S2x2x1024x1024 : S4x1024x1024.ShapeCasts S2x2x1024x1024
  transposes_S2x2x1024x1024_S1024x2x1024x2_2_1_3_0 : S2x2x1024x1024.Transposes [2, 1, 3, 0] S1024x2x1024x2
  shapeCasts_S1024x2x1024x2_S2048x2048 : S1024x2x1024x2.ShapeCasts S2048x2048
  bcast_S2048x2048_S1x1x2048x2048_2_3 : S2048x2048.BroadcastsInDim S1x1x2048x2048 (![2, 3] : Fin 2 → Fin S1x1x2048x2048.rank)
  bcast_S1x1x2048x2048_S16x1x2048x2048_0_1_2_3 : S1x1x2048x2048.BroadcastsInDim S16x1x2048x2048 (![0, 1, 2, 3] : Fin 4 → Fin S16x1x2048x2048.rank)

variable [Facts₀]

class Facts : Prop extends Facts₀ where

variable [Facts]
-- ==== Proof.KBody.lean ====
/-
  The frame run of the interleaving kernel, at any float instance.

  The kernel is one pipelined region on a grid of 2 × 8 × 16 points (row tile, column tile, batch; the batch
  innermost). Two input windows read ONE array, the argument: window 0 takes the block of the current batch,
  window 1 the block of batch 0 at the same tile (fetched once per tile, at the points divisible by 16). Two
  output windows write one [1, 1, 1024, 256] block each, at every point.

  * The body, run once on symbolic staging buffers: it loads both input blocks whole, stores into the first
    output buffer a pure function of the first block and into the second a pure function of the second block,
    each by one store covering the whole buffer; what an output buffer held before is read and discarded.
  * The proof data: each input buffer holds its window's block at every point (fetched there or not: where
    window 1 is not fetched its block index has not moved); each output buffer holds the body's function of
    the input block.
  * The launch: the argument array is dealt between the two input windows by halving its share (the left half
    to window 0, the right half to window 1); the outputs are held whole. With that split the library's launch
    theorem for windows that share an array applies, and the run ends with every windowed array at the
    contents the library computes from the proof data; an input array is never written, which is the frame.
-/
import proofs.«119594_j61744449847330_1_alg».proof.Proof.Gen.Kernel.Launch
import proofs.«119594_j61744449847330_1_alg».proof.Proof.Gen.Kernel.Skeleton
import proofs.«119594_j61744449847330_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in each output buffer -/

abbrev rIn : Rect S1x4x512x128 := Rect.unit (s := S1x4x512x128) ![0, 0, 0, 0] S1x4x512x128.size inb_S1x4x512x128_S1x4x512x128_0_0_0_0
abbrev rOut : Rect S1x1x1024x256 := Rect.unit (s := S1x1x1024x256) ![0, 0, 0, 0] S1x1x1024x256.size inb_S1x1x1024x256_S1x1x1024x256_0_0_0_0

/-- The first output buffer after the body: one store of the interleave of the first input block. -/
def out0_2 (x0 : Vec F S1x4x512x128 .f32) : Vec F S1x1x1024x256 .f32 :=
  View.canon [⟨rOut, k0_pay2 (View.ld x0 rIn)⟩]

/-- The second output buffer after the body: one store of the interleave of the four planes computed from the
    second input block. -/
def out0_3 (x1 : Vec F S1x4x512x128 .f32) : Vec F S1x1x1024x256 .f32 :=
  View.canon [⟨rOut, k0_pay1 (k0_pay3 (View.ld x1 rIn))⟩]

/-- One store through the whole rectangle covers the buffer. -/
theorem cover0 (p0 : Vec F S1x1x1024x256 .f32) (y : S1x1x1024x256.Idx) :
    ∃ pc ∈ ([⟨rOut, p0⟩] : List (View.Piece (Elt F) S1x1x1024x256 .f32)), y ∈ pc.1.set :=
  View.cover_of_tiled [⟨rOut, p0⟩] S1x1x1024x256.size (by rfl) y

/-! ## The body's triple -/

set_option maxHeartbeats 1000000 in
/-- The body on whole staging memrefs, the inputs' at read contents `x0`, `x1` and the outputs' at anything, runs
    to the continuation holding the inputs' as they were and the outputs' at `out0_2 x0` and `out0_3 x1`. -/
theorem sound_kernel (c : Dev nD) (E : Set ℕ) (i : grid0.Coords)
    (arg3 : Memref sig .tc .vmem S1x4x512x128 .f32) (harg3 : arg3.IsWhole) (arg4 : Memref sig .tc .vmem S1x4x512x128 .f32) (harg4 : arg4.IsWhole)
    (arg5 : Memref sig .tc .vmem S1x1x1024x256 .f32) (harg5 : arg5.IsWhole) (arg6 : Memref sig .tc .vmem S1x1x1024x256 .f32) (harg6 : arg6.IsWhole)
    (x0 : Vec F S1x4x512x128 .f32) (x1 : Vec F S1x4x512x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0) ∗ owns (c : Thread nD τ) arg6 fullShare (out0_3 x1)) -∗ K ⟨⟩))
      ⊢ wp frame (wpE (defs₀ (F := F)) Variants.none c none) E (cc0__scatter_kernel i arg3 harg3 arg4 harg4 arg5 harg5 arg6 harg6) K := by
  simp only [cc0__scatter_kernel_eq_skeleton]; unfold cc0__scatter_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0 _)
  · iexists _; isplitr
    swap; · iexact H3
    ipureintro
    try dsimp only
    exact View.read_writes_eq_canon _ _ _ (cover0 _)

/-! ## The pipeline's proof data -/

/-- The proof data on core `c`: the arrays as launched; after the body each input buffer at its block, each
    output buffer at the body's function of the input block; no invariant; nothing owed; the argument array's
    share halved between the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

/-- Each input buffer holds its window's block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KRun.lean ====
/-
  The launch of the interleaving kernel and its frame, at any float instance.

  The argument array is read by two input windows. At the region's entry the launch holds each of the three
  distinct buffers behind the four windows whole; the argument's points-to is halved, one half to each input
  window, and the two result buffers go whole to the output windows. With the arrays so dealt the library's
  launch theorem for windows that share an array gives the run: every weakly fair execution terminates, and
  each windowed array ends at the contents the library computes from the proof data (an input array at its
  entry contents, an output array at its entry contents overwritten block by block by what the body left).
-/
import proofs.«119594_j61744449847330_1_alg».proof.Proof.KBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the
    pipeline issues. -/
def u₀ : UR sig nD τ := initOf (Pipeline.cells cfgs cellOf_inj) (Pipeline.launchToks cfgs cellOf_inj)

/-- The distinct buffers behind the four windows, one by one. -/
theorem bigSep_arrs {M : Type} [URA M] (Φ : Ref sig .tc → sProp M) :
    bigSep (Finset.univ.image (Pipeline.arrRef spec0)) Φ = iprop(Φ main_arg0 ∗ Φ main_v0_0 ∗ Φ main_v0_1) :=
  bigSep_eq_bigSepL_of_eq [main_arg0, main_v0_0, main_v0_1] (by decide) (by decide) Φ

/-- The three distinct buffers behind the four windows, whole, become the four windows' arrays: the argument's
    share is halved between the two input windows. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  simp only [View.set_whole]
  have hs0 : (dats m 0 c).share 0 = fullShare.left := by unfold Dat.share; rfl
  have hs1 : (dats m 0 c).share 1 = fullShare.right := by unfold Dat.share; rfl
  have hs2 : (dats m 0 c).share 2 = fullShare := by unfold Dat.share; rfl
  have hs3 : (dats m 0 c).share 3 = fullShare := by unfold Dat.share; rfl
  have hz : ∀ w, (dats m 0 c).arrAt w 0 = (dats m 0 c).A w := fun _ => rfl
  rw [hs0, hs1, hs2, hs3, hz, hz, hz, hz, A_eq, A_eq, A_eq, A_eq]
  iintro ⟨Ha, H2, H3⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  iexact H3

/-- The run's post: every windowed array holds what the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any values, from any memory with zero counters: every weakly fair execution of the program terminates,
    and every final state has each windowed array at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

end Cert.Kernel.Frame

end
-- ==== Proof.KIBody.lean ====
/-
  The frame run of the interleaving kernel, at any float instance.

  The kernel is one pipelined region on a grid of 2 × 8 × 16 points (row tile, column tile, batch; the batch
  innermost). Two input windows read ONE array, the argument: window 0 takes the block of the current batch,
  window 1 the block of batch 0 at the same tile (fetched once per tile, at the points divisible by 16). Two
  output windows write one [1, 1, 1024, 256] block each, at every point.

  * The body, run once on symbolic staging buffers: it loads both input blocks whole, stores into the first
    output buffer a pure function of the first block and into the second a pure function of the second block,
    each by one store covering the whole buffer; what an output buffer held before is read and discarded.
  * The proof data: each input buffer holds its window's block at every point (fetched there or not: where
    window 1 is not fetched its block index has not moved); each output buffer holds the body's function of
    the input block.
  * The launch: the argument array is dealt between the two input windows by halving its share (the left half
    to window 0, the right half to window 1); the outputs are held whole. With that split the library's launch
    theorem for windows that share an array applies, and the run ends with every windowed array at the
    contents the library computes from the proof data; an input array is never written, which is the frame.
-/
import proofs.«119594_j61744449847330_1_alg».proof.Proof.Gen.KernelIdeal.Launch
import proofs.«119594_j61744449847330_1_alg».proof.Proof.Gen.KernelIdeal.Skeleton
import proofs.«119594_j61744449847330_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in each output buffer -/

abbrev rIn : Rect S1x4x512x128 := Rect.unit (s := S1x4x512x128) ![0, 0, 0, 0] S1x4x512x128.size inb_S1x4x512x128_S1x4x512x128_0_0_0_0
abbrev rOut : Rect S1x1x1024x256 := Rect.unit (s := S1x1x1024x256) ![0, 0, 0, 0] S1x1x1024x256.size inb_S1x1x1024x256_S1x1x1024x256_0_0_0_0

/-- The first output buffer after the body: one store of the interleave of the first input block. -/
def out0_2 (x0 : Vec F S1x4x512x128 .f32) : Vec F S1x1x1024x256 .f32 :=
  View.canon [⟨rOut, k0_pay2 (View.ld x0 rIn)⟩]

/-- The second output buffer after the body: one store of the interleave of the four planes computed from the
    second input block. -/
def out0_3 (x1 : Vec F S1x4x512x128 .f32) : Vec F S1x1x1024x256 .f32 :=
  View.canon [⟨rOut, k0_pay1 (k0_pay3 (View.ld x1 rIn))⟩]

/-- One store through the whole rectangle covers the buffer. -/
theorem cover0 (p0 : Vec F S1x1x1024x256 .f32) (y : S1x1x1024x256.Idx) :
    ∃ pc ∈ ([⟨rOut, p0⟩] : List (View.Piece (Elt F) S1x1x1024x256 .f32)), y ∈ pc.1.set :=
  View.cover_of_tiled [⟨rOut, p0⟩] S1x1x1024x256.size (by rfl) y

/-! ## The body's triple -/

set_option maxHeartbeats 1000000 in
/-- The body on whole staging memrefs, the inputs' at read contents `x0`, `x1` and the outputs' at anything, runs
    to the continuation holding the inputs' as they were and the outputs' at `out0_2 x0` and `out0_3 x1`. -/
theorem sound_kernel (c : Dev nD) (E : Set ℕ) (i : grid0.Coords)
    (arg3 : Memref sig .tc .vmem S1x4x512x128 .f32) (harg3 : arg3.IsWhole) (arg4 : Memref sig .tc .vmem S1x4x512x128 .f32) (harg4 : arg4.IsWhole)
    (arg5 : Memref sig .tc .vmem S1x1x1024x256 .f32) (harg5 : arg5.IsWhole) (arg6 : Memref sig .tc .vmem S1x1x1024x256 .f32) (harg6 : arg6.IsWhole)
    (x0 : Vec F S1x4x512x128 .f32) (x1 : Vec F S1x4x512x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out0_2 x0) ∗ owns (c : Thread nD τ) arg6 fullShare (out0_3 x1)) -∗ K ⟨⟩))
      ⊢ wp frame (wpE (defs₀ (F := F)) Variants.none c none) E (cc0__scatter_kernel i arg3 harg3 arg4 harg4 arg5 harg5 arg6 harg6) K := by
  simp only [cc0__scatter_kernel_eq_skeleton]; unfold cc0__scatter_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0 _)
  · iexists _; isplitr
    swap; · iexact H3
    ipureintro
    try dsimp only
    exact View.read_writes_eq_canon _ _ _ (cover0 _)

/-! ## The pipeline's proof data -/

/-- The proof data on core `c`: the arrays as launched; after the body each input buffer at its block, each
    output buffer at the body's function of the input block; no invariant; nothing owed; the argument array's
    share halved between the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

/-- Each input buffer holds its window's block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KIRun.lean ====
/-
  The launch of the interleaving kernel and its frame, at any float instance.

  The argument array is read by two input windows. At the region's entry the launch holds each of the three
  distinct buffers behind the four windows whole; the argument's points-to is halved, one half to each input
  window, and the two result buffers go whole to the output windows. With the arrays so dealt the library's
  launch theorem for windows that share an array gives the run: every weakly fair execution terminates, and
  each windowed array ends at the contents the library computes from the proof data (an input array at its
  entry contents, an output array at its entry contents overwritten block by block by what the body left).
-/
import proofs.«119594_j61744449847330_1_alg».proof.Proof.KIBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the
    pipeline issues. -/
def u₀ : UR sig nD τ := initOf (Pipeline.cells cfgs cellOf_inj) (Pipeline.launchToks cfgs cellOf_inj)

/-- The distinct buffers behind the four windows, one by one. -/
theorem bigSep_arrs {M : Type} [URA M] (Φ : Ref sig .tc → sProp M) :
    bigSep (Finset.univ.image (Pipeline.arrRef spec0)) Φ = iprop(Φ main_arg0 ∗ Φ main_v0_0 ∗ Φ main_v0_1) :=
  bigSep_eq_bigSepL_of_eq [main_arg0, main_v0_0, main_v0_1] (by decide) (by decide) Φ

/-- The three distinct buffers behind the four windows, whole, become the four windows' arrays: the argument's
    share is halved between the two input windows. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  simp only [View.set_whole]
  have hs0 : (dats m 0 c).share 0 = fullShare.left := by unfold Dat.share; rfl
  have hs1 : (dats m 0 c).share 1 = fullShare.right := by unfold Dat.share; rfl
  have hs2 : (dats m 0 c).share 2 = fullShare := by unfold Dat.share; rfl
  have hs3 : (dats m 0 c).share 3 = fullShare := by unfold Dat.share; rfl
  have hz : ∀ w, (dats m 0 c).arrAt w 0 = (dats m 0 c).A w := fun _ => rfl
  rw [hs0, hs1, hs2, hs3, hz, hz, hz, hz, A_eq, A_eq, A_eq, A_eq]
  iintro ⟨Ha, H2, H3⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  iexact H3

/-- The run's post: every windowed array holds what the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any values, from any memory with zero counters: every weakly fair execution of the program terminates,
    and every final state has each windowed array at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := arrays_of_bufs m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

end Cert.KernelIdeal.Frame

end
-- ==== Proof.Spec.lean ====
/-
  The two results as whole-array functions of the argument array, over the extended reals.

  The argument is x : [16, 4, 1024, 1024]. Both results have shape [16, 1, 2048, 2048].

  * The first result interleaves the four channels of each batch entry into one plane of twice the
    height and width: the element at row R, column C of batch b is channel 2·(C mod 2) + (R mod 2) at
    row R / 2, column C / 2.
  * The second result is the same interleave applied to four planes computed from batch 0 alone and
    repeated over the batch axis: the constant one, (a₀ + 1) / 2, (a₀ + a₁ + 1) / 3 and
    (a₀ + a₁ + a₂ + 1) / 4, where aₖ is channel k of batch 0 at row R / 2, column C / 2.

  Every float literal is kept as its bit pattern; the same patterns occur on both sides of the claim and
  are never evaluated.
-/
import Idealize.ShloMosaic.PureOps.Ideal
import Idealize.ShloMosaic.Lib.ValueIdx

noncomputable section

namespace Cert.Spec

open Idealize.ShloMosaic Idealize.ShloMosaic.ValueIdx

/-- The argument's shape and the results' shape. -/
abbrev SIn : Shape := ⟨4, ![16, 4, 1024, 1024]⟩
abbrev SOut : Shape := ⟨4, ![16, 1, 2048, 2048]⟩

/-- The channel that lands at a position with row parity `R mod 2` and column parity `C mod 2`. -/
def chanOf (R C : Nat) : Fin 4 := ⟨2 * (C % 2) + R % 2, by omega⟩

/-- Half a coordinate of the doubled plane. -/
def halfOf {n : Nat} (R : Fin (2 * n)) : Fin n := ⟨R.val / 2, by have := R.isLt; omega⟩

/-- The literals 1, 2, 3, 4 as the programs spell them. -/
abbrev one : EReal := Ideal.ofBits .f32 0x3F800000#32
abbrev two : EReal := Ideal.ofBits .f32 0x40000000#32
abbrev three : EReal := Ideal.ofBits .f32 0x40400000#32
abbrev four : EReal := Ideal.ofBits .f32 0x40800000#32

/-- The four computed planes at one position, from the three channels read there. -/
def consOf (a0 a1 a2 : EReal) (k : Fin 4) : EReal :=
  match k with
  | ⟨0, _⟩ => one
  | ⟨1, _⟩ => Ideal.div (a0 + one) two
  | ⟨2, _⟩ => Ideal.div (a0 + a1 + one) three
  | ⟨3, _⟩ => Ideal.div (a0 + a1 + a2 + one) four

/-- The first result at batch `b`, row `R`, column `C`. -/
def unsqueezeAt (x : SIn.Idx → EReal) (b : Fin 16) (R C : Fin 2048) : EReal :=
  x (ix4 b (chanOf R.val C.val) (halfOf (n := 1024) R) (halfOf (n := 1024) C))

/-- The second result at row `R`, column `C` (of every batch). -/
def consAt (x : SIn.Idx → EReal) (R C : Fin 2048) : EReal :=
  consOf (x (ix4 (0 : Fin 16) (0 : Fin 4) (halfOf (n := 1024) R) (halfOf (n := 1024) C)))
    (x (ix4 (0 : Fin 16) (1 : Fin 4) (halfOf (n := 1024) R) (halfOf (n := 1024) C)))
    (x (ix4 (0 : Fin 16) (2 : Fin 4) (halfOf (n := 1024) R) (halfOf (n := 1024) C)))
    (chanOf R.val C.val)

/-- The first result as one function of the argument array. -/
def unsqueeze (x : SIn.Idx → EReal) : SOut.Idx → EReal := fun j => unsqueezeAt x (j 0) (j 2) (j 3)

/-- The second result as one function of the argument array. -/
def cons (x : SIn.Idx → EReal) : SOut.Idx → EReal := fun j => consAt x (j 2) (j 3)

theorem unsqueeze_ix4 (x : SIn.Idx → EReal) (b : Fin 16) (o : Fin 1) (R C : Fin 2048) :
    unsqueeze x (ix4 b o R C) = unsqueezeAt x b R C := rfl

theorem cons_ix4 (x : SIn.Idx → EReal) (b : Fin 16) (o : Fin 1) (R C : Fin 2048) :
    cons x (ix4 b o R C) = consAt x R C := rfl

end Cert.Spec

end
-- ==== Proof.KPay.lean ====
/-
  The kernel body's two stored values, read at an index of the output block.

  The body stores two blocks of shape [1, 1, 1024, 256]. Each is a block v of shape [4, 512, 128] (four channel
  planes) passed through one fixed chain of layout operations: a shape cast to [2, 2, 512, 128], the transpose
  by [2, 1, 3, 0] to [512, 2, 128, 2], and shape casts to [1024, 256] and to [1, 1, 1024, 256]. Read at row R,
  column C the chain gives v at channel 2·(C mod 2) + (R mod 2), row R / 2, column C / 2: with R = 2·h + dr and
  C = 2·w + dc, position (R, C) of [1024, 256] is position (h, dr, w, dc) of [512, 2, 128, 2], which the transpose
  reads at (dc, dr, h, w) of [2, 2, 512, 128], which is channel 2·dc + dr at (h, w).

  * In the first stored value v is the loaded block itself with its leading unit axis dropped.
  * In the second stored value v is the stack of four computed planes: the constant one, (a₀ + 1) / 2,
    (a₀ + a₁ + 1) / 3 and (a₀ + a₁ + a₂ + 1) / 4, where aₖ is channel k of the loaded block.
-/
import proofs.«119594_j61744449847330_1_alg».proof.Proof.Gen.KernelIdeal.Skeleton
import proofs.«119594_j61744449847330_1_alg».proof.Proof.Spec
import Idealize.ShloMosaic.Lib.ValueIdx
import Idealize.ShloMosaic.Lib.Pipeline.Value

noncomputable section

namespace Cert.KPay

open Cert.KernelIdeal Cert.KernelIdeal.Gen Cert.Spec Idealize.ShloMosaic Idealize.ShloMosaic.ValueIdx

/-! ## The interleaving chain at an index -/

/-- The chain of four layout operations that interleaves four channel planes into one plane of twice the height
    and width. -/
def interleave {α : Type} (v : S4x512x128.Idx → α) : S1x1x1024x256.Idx → α :=
  shapeCast S1x1x1024x256
    (shapeCast S1024x256
      (transpose S512x2x128x2 [2, 1, 3, 0]
        (shapeCast S2x2x512x128 v shapeCasts_S4x512x128_S2x2x512x128)
        transposes_S2x2x512x128_p2_1_3_0_S512x2x128x2)
      shapeCasts_S512x2x128x2_S1024x256)
    shapeCasts_S1024x256_S1x1x1024x256

/-- The chain read at row R, column C: channel 2·(C mod 2) + (R mod 2) at row R / 2, column C / 2. -/
theorem interleave_apply {α : Type} (v : S4x512x128.Idx → α) (R : Fin 1024) (C : Fin 256) :
    interleave v (ix4 (0 : Fin 1) (0 : Fin 1) R C)
      = v (ix3 (chanOf R.val C.val) (halfOf (n := 512) R) (halfOf (n := 128) C)) := by
  have hR : R.val < 1024 := R.isLt
  have hC : C.val < 256 := C.isLt
  -- R = 2·h + dr and C = 2·w + dc
  have hh : R.val / 2 < 512 := by omega
  have hdr : R.val % 2 < 2 := by omega
  have hw : C.val / 2 < 128 := by omega
  have hdc : C.val % 2 < 2 := by omega
  unfold interleave
  -- [1, 1, 1024, 256] at (0, 0, R, C) is [1024, 256] at (R, C)
  refine (shapeCast_apply _ _ _ (ix2 R C)
    (by rw [Shape.rowMajor_val_two, Shape.rowMajor_val_four]
        show R.val * 256 + C.val = ((0 * 1 + 0) * 1024 + R.val) * 256 + C.val
        omega)).trans ?_
  -- [1024, 256] at (R, C) is [512, 2, 128, 2] at (h, dr, w, dc)
  refine (shapeCast_apply _ _ _
    (ix4 (⟨R.val / 2, hh⟩ : Fin 512) (⟨R.val % 2, hdr⟩ : Fin 2) (⟨C.val / 2, hw⟩ : Fin 128) (⟨C.val % 2, hdc⟩ : Fin 2))
    (by rw [Shape.rowMajor_val_four, Shape.rowMajor_val_two]
        show ((R.val / 2 * 2 + R.val % 2) * 128 + C.val / 2) * 2 + C.val % 2 = R.val * 256 + C.val
        omega)).trans ?_
  -- the transpose by [2, 1, 3, 0]: [512, 2, 128, 2] at (h, dr, w, dc) is [2, 2, 512, 128] at (dc, dr, h, w)
  refine (transpose_apply _ _ _ _
    (ix4 (⟨C.val % 2, hdc⟩ : Fin 2) (⟨R.val % 2, hdr⟩ : Fin 2) (⟨R.val / 2, hh⟩ : Fin 512) (⟨C.val / 2, hw⟩ : Fin 128))
    (fun b => match b with | ⟨0, _⟩ => rfl | ⟨1, _⟩ => rfl | ⟨2, _⟩ => rfl | ⟨3, _⟩ => rfl)).trans ?_
  -- [2, 2, 512, 128] at (dc, dr, h, w) is [4, 512, 128] at (2·dc + dr, h, w)
  exact shapeCast_apply _ _ _ _
    (by rw [Shape.rowMajor_val_three, Shape.rowMajor_val_four]
        show ((2 * (C.val % 2) + R.val % 2) * 512 + R.val / 2) * 128 + C.val / 2
          = (((C.val % 2) * 2 + R.val % 2) * 512 + R.val / 2) * 128 + C.val / 2
        omega)

/-! ## The first stored value -/

/-- The first stored value is the interleaving chain applied to the loaded block without its unit axis. -/
theorem pay2_eq (x : Vec Ideal S1x4x512x128 .f32) :
    k0_pay2 (F := Ideal) x = interleave (shapeCast S4x512x128 x shapeCasts_S1x4x512x128_S4x512x128) := rfl

/-- The first stored value at row R, column C: the loaded block at channel 2·(C mod 2) + (R mod 2), row R / 2,
    column C / 2. -/
theorem pay2_apply (x : Vec Ideal S1x4x512x128 .f32) (R : Fin 1024) (C : Fin 256) :
    k0_pay2 (F := Ideal) x (ix4 (0 : Fin 1) (0 : Fin 1) R C)
      = x (ix4 (0 : Fin 1) (chanOf R.val C.val) (halfOf (n := 512) R) (halfOf (n := 128) C)) := by
  rw [pay2_eq]
  refine (interleave_apply _ R C).trans ?_
  -- [4, 512, 128] at (k, r, c) is [1, 4, 512, 128] at (0, k, r, c)
  exact shapeCast_apply _ _ _ _
    (by rw [Shape.rowMajor_val_four, Shape.rowMajor_val_three]
        show ((0 * 4 + (chanOf R.val C.val).val) * 512 + (halfOf (n := 512) R).val) * 128 + (halfOf (n := 128) C).val
          = ((chanOf R.val C.val).val * 512 + (halfOf (n := 512) R).val) * 128 + (halfOf (n := 128) C).val
        omega)

/-! ## The second stored value -/

/-- Channel k of the loaded block as a plane: the unit slice at offset k of the block without its leading unit
    axis, the slice's own unit axis dropped. -/
def chan (x : Vec Ideal S1x4x512x128 .f32) (k : Nat) (hs : S4x512x128.Slices ![k, 0, 0] S1x512x128) :
    FVec Ideal S512x128 .f32 :=
  shapeCast S512x128
    (extractStridedSlice S1x512x128 ![k, 0, 0] (shapeCast S4x512x128 x shapeCasts_S1x4x512x128_S4x512x128) hs)
    shapeCasts_S1x512x128_S512x128

/-- Channel k's plane at row r, column c is the loaded block at (0, k, r, c). -/
theorem chan_apply (x : Vec Ideal S1x4x512x128 .f32) (k : Nat) (hk : k < 4)
    (hs : S4x512x128.Slices ![k, 0, 0] S1x512x128) (r : Fin 512) (c : Fin 128) :
    chan x k hs (ix2 r c) = x (ix4 (0 : Fin 1) (⟨k, hk⟩ : Fin 4) r c) := by
  unfold chan
  -- [512, 128] at (r, c) is [1, 512, 128] at (0, r, c)
  refine (shapeCast_apply _ _ _ (ix3 (0 : Fin 1) r c)
    (by rw [Shape.rowMajor_val_three, Shape.rowMajor_val_two]
        show (0 * 512 + r.val) * 128 + c.val = r.val * 128 + c.val
        omega)).trans ?_
  -- the unit slice at offset k: [1, 512, 128] at (0, r, c) is [4, 512, 128] at (k, r, c)
  refine (extractStridedSlice_apply _ _ _ _ (ix3 (⟨k, hk⟩ : Fin 4) r c)
    (fun a => match a with
      | ⟨0, _⟩ => by show k = k + 0; omega
      | ⟨1, _⟩ => by show r.val = 0 + r.val; omega
      | ⟨2, _⟩ => by show c.val = 0 + c.val; omega)).trans ?_
  -- [4, 512, 128] at (k, r, c) is [1, 4, 512, 128] at (0, k, r, c)
  exact shapeCast_apply _ _ _ _
    (by rw [Shape.rowMajor_val_four, Shape.rowMajor_val_three]
        show ((0 * 4 + k) * 512 + r.val) * 128 + c.val = (k * 512 + r.val) * 128 + c.val
        omega)

/-- The three channel planes the body slices out. -/
abbrev a0 (x : Vec Ideal S1x4x512x128 .f32) : FVec Ideal S512x128 .f32 := chan x 0 slices_S4x512x128_o0_0_0_S1x512x128
abbrev a1 (x : Vec Ideal S1x4x512x128 .f32) : FVec Ideal S512x128 .f32 := chan x 1 slices_S4x512x128_o1_0_0_S1x512x128
abbrev a2 (x : Vec Ideal S1x4x512x128 .f32) : FVec Ideal S512x128 .f32 := chan x 2 slices_S4x512x128_o2_0_0_S1x512x128

theorem a0_apply (x : Vec Ideal S1x4x512x128 .f32) (r : Fin 512) (c : Fin 128) :
    a0 x (ix2 r c) = x (ix4 (0 : Fin 1) (0 : Fin 4) r c) := chan_apply x 0 (by omega) _ r c
theorem a1_apply (x : Vec Ideal S1x4x512x128 .f32) (r : Fin 512) (c : Fin 128) :
    a1 x (ix2 r c) = x (ix4 (0 : Fin 1) (1 : Fin 4) r c) := chan_apply x 1 (by omega) _ r c
theorem a2_apply (x : Vec Ideal S1x4x512x128 .f32) (r : Fin 512) (c : Fin 128) :
    a2 x (ix2 r c) = x (ix4 (0 : Fin 1) (2 : Fin 4) r c) := chan_apply x 2 (by omega) _ r c

/-- A plane with a leading unit axis put in front. -/
abbrev lift1 (p : FVec Ideal S512x128 .f32) : FVec Ideal S1x512x128 .f32 :=
  shapeCast S1x512x128 p shapeCasts_S512x128_S1x512x128

/-- [1, 512, 128] at (0, r, c) is [512, 128] at (r, c). -/
theorem lift1_apply (p : FVec Ideal S512x128 .f32) (r : Fin 512) (c : Fin 128) :
    lift1 p (ix3 (0 : Fin 1) r c) = p (ix2 r c) :=
  shapeCast_apply _ _ _ _
    (by rw [Shape.rowMajor_val_two, Shape.rowMajor_val_three]
        show r.val * 128 + c.val = (0 * 512 + r.val) * 128 + c.val
        omega)

/-- The literal k as a constant plane. -/
abbrev lit (w : BitVec 32) : FVec Ideal S512x128 .f32 := broadcast S512x128 (Scalar.ofBits (F := Ideal) .f32 w)

/-- The four computed planes, each with a leading unit axis: the constant one, (a₀ + 1) / 2, (a₀ + a₁ + 1) / 3 and
    (a₀ + a₁ + a₂ + 1) / 4. -/
def plane (x : Vec Ideal S1x4x512x128 .f32) : Fin 4 → FVec Ideal S1x512x128 .f32
  | ⟨0, _⟩ => lift1 (lit 0x3F800000#32)
  | ⟨1, _⟩ => lift1 (divf (addf (a0 x) (lit 0x3F800000#32)) (lit 0x40000000#32))
  | ⟨2, _⟩ => lift1 (divf (addf (addf (a0 x) (a1 x)) (lit 0x3F800000#32)) (lit 0x40400000#32))
  | ⟨3, _⟩ => lift1 (divf (addf (addf (addf (a0 x) (a1 x)) (a2 x)) (lit 0x3F800000#32)) (lit 0x40800000#32))

/-- Plane k at (0, r, c) is the specification's formula k of the three channels read at (r, c). -/
theorem plane_apply (x : Vec Ideal S1x4x512x128 .f32) (k : Fin 4) (r : Fin 512) (c : Fin 128) :
    plane x k (ix3 (0 : Fin 1) r c)
      = consOf (x (ix4 (0 : Fin 1) (0 : Fin 4) r c)) (x (ix4 (0 : Fin 1) (1 : Fin 4) r c))
          (x (ix4 (0 : Fin 1) (2 : Fin 4) r c)) k := by
  match k with
  | ⟨0, _⟩ =>
    show lift1 (lit 0x3F800000#32) (ix3 (0 : Fin 1) r c) = one
    refine (lift1_apply _ r c).trans ?_
    rfl
  | ⟨1, _⟩ =>
    show lift1 (divf (addf (a0 x) (lit 0x3F800000#32)) (lit 0x40000000#32)) (ix3 (0 : Fin 1) r c)
      = Ideal.div (x (ix4 (0 : Fin 1) (0 : Fin 4) r c) + one) two
    refine (lift1_apply _ r c).trans ?_
    show Ideal.div (a0 x (ix2 r c) + one) two = Ideal.div (x (ix4 (0 : Fin 1) (0 : Fin 4) r c) + one) two
    rw [a0_apply]
  | ⟨2, _⟩ =>
    show lift1 (divf (addf (addf (a0 x) (a1 x)) (lit 0x3F800000#32)) (lit 0x40400000#32)) (ix3 (0 : Fin 1) r c)
      = Ideal.div (x (ix4 (0 : Fin 1) (0 : Fin 4) r c) + x (ix4 (0 : Fin 1) (1 : Fin 4) r c) + one) three
    refine (lift1_apply _ r c).trans ?_
    show Ideal.div (a0 x (ix2 r c) + a1 x (ix2 r c) + one) three
      = Ideal.div (x (ix4 (0 : Fin 1) (0 : Fin 4) r c) + x (ix4 (0 : Fin 1) (1 : Fin 4) r c) + one) three
    rw [a0_apply, a1_apply]
  | ⟨3, _⟩ =>
    show lift1 (divf (addf (addf (addf (a0 x) (a1 x)) (a2 x)) (lit 0x3F800000#32)) (lit 0x40800000#32))
        (ix3 (0 : Fin 1) r c)
      = Ideal.div (x (ix4 (0 : Fin 1) (0 : Fin 4) r c) + x (ix4 (0 : Fin 1) (1 : Fin 4) r c)
          + x (ix4 (0 : Fin 1) (2 : Fin 4) r c) + one) four
    refine (lift1_apply _ r c).trans ?_
    show Ideal.div (a0 x (ix2 r c) + a1 x (ix2 r c) + a2 x (ix2 r c) + one) four
      = Ideal.div (x (ix4 (0 : Fin 1) (0 : Fin 4) r c) + x (ix4 (0 : Fin 1) (1 : Fin 4) r c)
          + x (ix4 (0 : Fin 1) (2 : Fin 4) r c) + one) four
    rw [a0_apply, a1_apply, a2_apply]

/-- The stack of the four planes along the channel axis is what the body computes from the loaded block. -/
theorem pay3_eq (x : Vec Ideal S1x4x512x128 .f32) :
    k0_pay3 (F := Ideal) x
      = concatenate S4x512x128 0 (List.ofFn fun n : Fin 4 => (⟨S1x512x128, plane x n⟩ : (s : Shape) × (s.Idx → Ideal .f32)))
          concatenates_S1x512x128_S1x512x128_S1x512x128_S1x512x128_S4x512x128_d0 := rfl

/-- The stack at channel k, row r, column c is the specification's formula k of the three channels read there. -/
theorem pay3_apply (x : Vec Ideal S1x4x512x128 .f32) (k : Fin 4) (r : Fin 512) (c : Fin 128) :
    k0_pay3 (F := Ideal) x (ix3 k r c)
      = consOf (x (ix4 (0 : Fin 1) (0 : Fin 4) r c)) (x (ix4 (0 : Fin 1) (1 : Fin 4) r c))
          (x (ix4 (0 : Fin 1) (2 : Fin 4) r c)) k := by
  rw [pay3_eq]
  -- the stack at channel k reads piece k at the same row and column
  refine (concatenate_ofFn_unit_apply (t := S4x512x128) (s₁ := S1x512x128) 0 (plane x) _ rfl rfl (ix3 k r c) k rfl (ix3 (0 : Fin 1) r c)
    (fun b hb => match b with
      | ⟨0, _⟩ => absurd rfl hb
      | ⟨1, _⟩ => rfl
      | ⟨2, _⟩ => rfl)).trans ?_
  exact plane_apply x k r c

/-- The second stored value is the interleaving chain applied to its operand. -/
theorem pay1_eq (v : FVec Ideal S4x512x128 .f32) : k0_pay1 (F := Ideal) v = interleave v := rfl

/-- The second stored value at row R, column C: the specification's formula 2·(C mod 2) + (R mod 2) of the
    three channels read at row R / 2, column C / 2. -/
theorem pay13_apply (x : Vec Ideal S1x4x512x128 .f32) (R : Fin 1024) (C : Fin 256) :
    k0_pay1 (F := Ideal) (k0_pay3 (F := Ideal) x) (ix4 (0 : Fin 1) (0 : Fin 1) R C)
      = consOf (x (ix4 (0 : Fin 1) (0 : Fin 4) (halfOf (n := 512) R) (halfOf (n := 128) C)))
          (x (ix4 (0 : Fin 1) (1 : Fin 4) (halfOf (n := 512) R) (halfOf (n := 128) C)))
          (x (ix4 (0 : Fin 1) (2 : Fin 4) (halfOf (n := 512) R) (halfOf (n := 128) C)))
          (chanOf R.val C.val) := by
  rw [pay1_eq]
  refine (interleave_apply _ R C).trans ?_
  exact pay3_apply x _ _ _

end Cert.KPay

end
-- ==== Proof.KIValue2.lean ====
/-
  From blocks to the array, for the idealized kernel's first output.

  The grid has 2 × 8 × 16 points (row tile, column tile, batch). At the point with row tile hi, column tile wi
  and batch b the first input window is the block [1, 4, 512, 128] of the argument at block index (b, 0, hi, wi),
  and the first output window the block [1, 1, 1024, 256] of the result at block index (b, 0, hi, wi).

  * What a point writes back. The body stores, at row R and column C of its output block, the input block at
    channel 2·(C mod 2) + R mod 2, row R / 2, column C / 2. In the array that input position is batch b, the same
    channel, row 512·hi + R / 2 and column 128·wi + C / 2; the output position is row 1024·hi + R and column
    256·wi + C, whose halves are those and whose parities are those of R and C because the tile sizes are even.
    So the block written back is the block of the specification's function of the argument array.
  * The blocks tile the result: index (b, ·, R, C) lies in the block of the point with batch b, row tile R / 1024
    and column tile C / 256, and every point writes its block back. Hence the array after the run is the
    specification's function everywhere.
-/
import proofs.«119594_j61744449847330_1_alg».proof.Proof.KIBody
import proofs.«119594_j61744449847330_1_alg».proof.Proof.KPay
import proofs.«119594_j61744449847330_1_alg».proof.Proof.Spec
import proofs.«119594_j61744449847330_1_alg».proof.Proof.Gen.KernelIdeal.Points
import Idealize.ShloMosaic.Lib.Pipeline.Value

noncomputable section

namespace Cert.KernelIdeal.Value2

open Cert.KernelIdeal Cert.KernelIdeal.Gen Cert.KernelIdeal.Frame Cert.Spec Idealize.ShloMosaic Idealize.ShloMosaic.TcCoe Idealize.ShloMosaic.ValueIdx Idealize.SL.Sem

variable (m : (ℓ : Loc nD τ sig) → Buf (Elt Ideal) ℓ)

/-- The all-zero offsets of the whole-buffer rectangles. -/
theorem zero4 : (![0, 0, 0, 0] : Fin 4 → Nat) = fun _ => 0 := funext fun a => by fin_cases a <;> rfl

/-- The printed index maps, decided over the grid: the first input window sits at the output window's batch,
    row tile and column tile, at channel block 0; and the output's block indices stay in their ranges. -/
theorem tile_facts : ∀ t : Fin cfg0.N,
    win0_0.index t (0 : Fin 4) = win0_2.index t (0 : Fin 4)
    ∧ win0_0.index t (1 : Fin 4) = 0
    ∧ win0_0.index t (2 : Fin 4) = win0_2.index t (2 : Fin 4)
    ∧ win0_0.index t (3 : Fin 4) = win0_2.index t (3 : Fin 4)
    ∧ win0_2.index t (0 : Fin 4) ≤ 15 ∧ win0_2.index t (1 : Fin 4) = 0
    ∧ win0_2.index t (2 : Fin 4) ≤ 1 ∧ win0_2.index t (3 : Fin 4) ≤ 7 :=
  (by decide +kernel : ∀ t : Fin grid0.N, _)

/-- The point of the grid with row tile `q2`, column tile `q3` and batch `q0` (the batch innermost). -/
def pointOf (q0 : Fin 16) (q2 : Fin 2) (q3 : Fin 8) : Fin cfg0.N :=
  ⟨(q2.val * 8 + q3.val) * 16 + q0.val, by
    have := q0.isLt; have := q2.isLt; have := q3.isLt
    show (q2.val * 8 + q3.val) * 16 + q0.val < 256
    omega⟩

/-- Every (batch, row tile, column tile) is some point's block of the output. -/
theorem tile_onto : ∀ (q0 : Fin 16) (q2 : Fin 2) (q3 : Fin 8),
    win0_2.index (pointOf q0 q2 q3) = ![q0.val, 0, q2.val, q3.val] := by
  decide +kernel

/-- The first input block at a position is the argument array at the position's place in the array. -/
theorem iblk0_apply (c : Dev nD) (t : Fin cfg0.N) (y : S1x4x512x128.Idx) :
    iblk m c 0 t y = V m c main_arg0 (((cfg0.win 0).blk t).view.emb y) := rfl

/-- What point `t` writes back is block `t` of the specification's first function of the argument array. -/
theorem flushed_eq (c : Dev nD) (t : Fin cfg0.N) :
    (dats m 0 c).flushed 2 t
      = ((cfg0.win 2).blk t).view.read (Elt Ideal) (unsqueeze (m ((c : Thread nD τ).loc main_arg0))) := by
  show (cfg0.win 2).cut (grid0.coords t) ((dats m 0 c).after 2 t) = _
  rw [after0_2]
  unfold out0_2
  rw [View.canon_unit_zero zero4]
  simp only [View.ld_unit_zero (S := S1x4x512x128) zero4]
  obtain ⟨e0, e1, e2, e3, b0, b1, b2, b3⟩ := tile_facts t
  funext j
  obtain ⟨o1, o2, R, C, rfl⟩ : ∃ (o1 o2 : Fin 1) (R : Fin 1024) (C : Fin 256), j = ix4 o1 o2 R C :=
    ⟨j 0, j 1, j 2, j 3, eq_ix4 j⟩
  obtain rfl : o1 = 0 := Subsingleton.elim _ _
  obtain rfl : o2 = 0 := Subsingleton.elim _ _
  refine (KPay.pay2_apply (iblk m c 0 t) R C).trans ?_
  rw [iblk0_apply]
  show V m c main_arg0 _ = unsqueeze (V m c main_arg0) (((cfg0.win 2).blk t).view.emb (ix4 (0 : Fin 1) (0 : Fin 1) R C))
  unfold unsqueeze unsqueezeAt
  refine congrArg (V m c main_arg0) ?_
  funext a
  refine Fin.ext ?_
  have hR := R.isLt; have hC := C.isLt
  match a with
  | ⟨0, _⟩ =>
    show win0_0.index t (0 : Fin 4) * 1 + 1 * 0 = win0_2.index t (0 : Fin 4) * 1 + 1 * 0
    omega
  | ⟨1, _⟩ =>
    show win0_0.index t (1 : Fin 4) * 4 + 1 * (2 * (C.val % 2) + R.val % 2)
      = 2 * ((win0_2.index t (3 : Fin 4) * 256 + 1 * C.val) % 2) + (win0_2.index t (2 : Fin 4) * 1024 + 1 * R.val) % 2
    omega
  | ⟨2, _⟩ =>
    show win0_0.index t (2 : Fin 4) * 512 + 1 * (R.val / 2) = (win0_2.index t (2 : Fin 4) * 1024 + 1 * R.val) / 2
    omega
  | ⟨3, _⟩ =>
    show win0_0.index t (3 : Fin 4) * 128 + 1 * (C.val / 2) = (win0_2.index t (3 : Fin 4) * 256 + 1 * C.val) / 2
    omega

/-- An index of the array is in point `t`'s block iff each coordinate is in the block's range on its axis. -/
theorem mem_blk (t : Fin cfg0.N) (i : S16x1x2048x2048.Idx) :
    i ∈ ((cfg0.win 2).blk t).view.set
      ↔ ∀ a : Fin 4, win0_2.index t a * S1x1x1024x256.size a ≤ (i a).val
          ∧ (i a).val < win0_2.index t a * S1x1x1024x256.size a + S1x1x1024x256.size a := by
  show i ∈ ((View.whole main_v0_0).slice (win0_2.rect t)).set ↔ _
  rw [View.set_slice_whole, Rect.mem_set_unit]
  exact Iff.rfl

/-- The blocks tile the array: the index (b, ·, R, C) is in the block of the point with batch b, row tile
    R / 1024 and column tile C / 256, and every point writes its block back. -/
theorem cover (i : S16x1x2048x2048.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 2048 := (i 2).isLt
  have h3 : (i 3).val < 2048 := (i 3).isLt
  have ht := tile_onto ⟨(i 0).val, h0⟩ ⟨(i 2).val / 1024, by omega⟩ ⟨(i 3).val / 256, by omega⟩
  generalize pointOf ⟨(i 0).val, h0⟩ ⟨(i 2).val / 1024, by omega⟩ ⟨(i 3).val / 256, by omega⟩ = t at ht
  have q0 : win0_2.index t (0 : Fin 4) = (i 0).val := congrFun ht 0
  have q1 : win0_2.index t (1 : Fin 4) = 0 := congrFun ht 1
  have q2 : win0_2.index t (2 : Fin 4) = (i 2).val / 1024 := congrFun ht 2
  have q3 : win0_2.index t (3 : Fin 4) = (i 3).val / 256 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 1 ≤ (i 1).val ∧ (i 1).val < win0_2.index t (1 : Fin 4) * 1 + 1
    omega
  | ⟨2, _⟩ =>
    show win0_2.index t (2 : Fin 4) * 1024 ≤ (i 2).val ∧ (i 2).val < win0_2.index t (2 : Fin 4) * 1024 + 1024
    omega
  | ⟨3, _⟩ =>
    show win0_2.index t (3 : Fin 4) * 256 ≤ (i 3).val ∧ (i 3).val < win0_2.index t (3 : Fin 4) * 256 + 256
    omega

/-- The array after the run is the specification's first function of the argument array. -/
theorem final2 (c : Dev nD) :
    (dats m 0 c).arrAt 2 cfg0.N = Cert.Spec.unsqueeze (m ((c : Thread nD τ).loc main_arg0)) :=
  (dats m 0 c).arrAt_eq_of_cover 2 _ (fun t _ => flushed_eq m c t) cover

end Cert.KernelIdeal.Value2

end
-- ==== Proof.KIValue3.lean ====
/-
  From blocks to the array, for the second result.

  The grid has 2 × 8 × 16 points (row tile, column tile, batch). At every point the second output window writes
  back one block [1, 1, 1024, 256] of a [16, 1, 2048, 2048] array, at block index (batch, 0, row tile, column
  tile); what it writes is the body's second stored value computed from the block [1, 4, 512, 128] of the argument
  at block index (0, 0, row tile, column tile).

  * At row R, column C of the block the stored value is the specification's formula 2·(C mod 2) + (R mod 2) of
    channels 0, 1, 2 of the input block at row R / 2, column C / 2. Under the block, the array's row is
    1024·(row tile) + R and its column 256·(column tile) + C; their halves are 512·(row tile) + R / 2 and
    128·(column tile) + C / 2, which is where the input block's element sits in the argument, and their parities
    are those of R and C because the block sizes are even. So the block written back is the block of the
    specification's array.
  * Every index (b, 0, R, C) of the array lies in the block of the point (R / 1024, C / 256, b). So the blocks
    cover the array and it ends holding the specification's function of the argument.
-/
import proofs.«119594_j61744449847330_1_alg».proof.Proof.KIBody
import proofs.«119594_j61744449847330_1_alg».proof.Proof.KPay
import proofs.«119594_j61744449847330_1_alg».proof.Proof.Spec
import proofs.«119594_j61744449847330_1_alg».proof.Proof.Gen.KernelIdeal.Points
import Idealize.ShloMosaic.Lib.Pipeline.Value

set_option maxRecDepth 16384

noncomputable section

namespace Cert.KernelIdeal.Value3

open Cert.KernelIdeal Cert.KernelIdeal.Gen Cert.KernelIdeal.Frame Cert.Spec
open Idealize.ShloMosaic Idealize.ShloMosaic.TcCoe Idealize.ShloMosaic.ValueIdx Idealize.SL.Sem

variable (m : (ℓ : Loc nD τ sig) → Buf (Elt Ideal) ℓ)

/-- The zero offsets of a whole-block access, however spelt. -/
theorem zero_off : (![0, 0, 0, 0] : Fin 4 → Nat) = fun _ => 0 :=
  funext fun a => match a with | ⟨0, _⟩ => rfl | ⟨1, _⟩ => rfl | ⟨2, _⟩ => rfl | ⟨3, _⟩ => rfl

/-! ## The block indices over the grid -/

/-- Decided over the grid: the second input window sits at batch 0, channel block 0 and at the output window's
    row and column tile; the output window's channel block is 0. -/
theorem index_facts : ∀ t : Fin cfg0.N, win0_1.index t (0 : Fin 4) = 0
    ∧ win0_1.index t (1 : Fin 4) = 0
    ∧ win0_1.index t (2 : Fin 4) = win0_3.index t (2 : Fin 4)
    ∧ win0_1.index t (3 : Fin 4) = win0_3.index t (3 : Fin 4)
    ∧ win0_3.index t (1 : Fin 4) = 0 :=
  (by decide +kernel : ∀ t : Fin grid0.N, _)

/-- The point with row tile q2, column tile q3 and batch q0 (the batch runs fastest). -/
def pointOf (q0 : Fin 16) (q2 : Fin 2) (q3 : Fin 8) : Fin cfg0.N :=
  ⟨(q2.val * 8 + q3.val) * 16 + q0.val, by
    have := q0.isLt; have := q2.isLt; have := q3.isLt
    show (q2.val * 8 + q3.val) * 16 + q0.val < 256
    omega⟩

/-- Every block of the output array is some point's: block (q0, 0, q2, q3) is the point's with those coordinates. -/
theorem index_onto : ∀ (q0 : Fin 16) (q2 : Fin 2) (q3 : Fin 8),
    win0_3.index (pointOf q0 q2 q3) = ![q0.val, 0, q2.val, q3.val] := by
  decide +kernel

/-! ## What a point writes back -/

/-- The formula is a function of its three channel values and its number. -/
theorem consOf_congr {a0 a1 a2 b0 b1 b2 : EReal} {k k' : Fin 4} (h0 : a0 = b0) (h1 : a1 = b1) (h2 : a2 = b2)
    (hk : k = k') : consOf a0 a1 a2 k = consOf b0 b1 b2 k' := by
  subst h0 h1 h2 hk; rfl

/-- The channel number at a position depends only on the parities, and the block sizes are even. -/
theorem chanOf_block (p q R C : Nat) : chanOf (p * 1024 + 1 * R) (q * 256 + 1 * C) = chanOf R C := by
  apply Fin.ext
  show 2 * ((q * 256 + 1 * C) % 2) + (p * 1024 + 1 * R) % 2 = 2 * (C % 2) + R % 2
  omega

/-- The second input block at point t, read at channel k, row r, column c, is the argument at batch 0, channel
    k, and the row and column that the output window's tile puts r and c at. -/
theorem inBlock_apply (c : Dev nD) (t : Fin cfg0.N) (k : Fin 4) (r : Fin 512) (cc : Fin 128) (i : SIn.Idx)
    (h0 : (i 0).val = 0) (h1 : (i 1).val = k.val)
    (h2 : (i 2).val = win0_3.index t (2 : Fin 4) * 512 + r.val)
    (h3 : (i 3).val = win0_3.index t (3 : Fin 4) * 128 + cc.val) :
    iblk m c 1 t (ix4 (0 : Fin 1) k r cc) = V m c main_arg0 i := by
  obtain ⟨e0, e1, e2, e3, -⟩ := index_facts t
  show V m c main_arg0 (((cfg0.win 1).blk t).view.emb (ix4 (0 : Fin 1) k r cc)) = V m c main_arg0 i
  refine congrArg _ (funext fun a => Fin.ext ?_)
  match a with
  | ⟨0, _⟩ => show win0_1.index t (0 : Fin 4) * 1 + 1 * 0 = (i 0).val; omega
  | ⟨1, _⟩ => show win0_1.index t (1 : Fin 4) * 4 + 1 * k.val = (i 1).val; omega
  | ⟨2, _⟩ => show win0_1.index t (2 : Fin 4) * 512 + 1 * r.val = (i 2).val; omega
  | ⟨3, _⟩ => show win0_1.index t (3 : Fin 4) * 128 + 1 * cc.val = (i 3).val; omega

/-- WHAT POINT t WRITES BACK is block t of the specification's second result of the argument. -/
theorem flushed_eq (c : Dev nD) (t : Fin cfg0.N) :
    (dats m 0 c).flushed 3 t
      = ((cfg0.win 3).blk t).view.read (Elt Ideal) (cons (m ((c : Thread nD τ).loc main_arg0))) := by
  show (cfg0.win 3).cut (grid0.coords t) ((dats m 0 c).after 3 t) = _
  rw [after0_3]
  unfold out0_3
  rw [View.canon_unit_zero zero_off]
  simp only [View.ld_unit_zero (S := S1x4x512x128) zero_off]
  refine funext fun (j : S1x1x1024x256.Idx) => ?_
  obtain ⟨o1, o2, R, C, rfl⟩ : ∃ (o1 o2 : Fin 1) (R : Fin 1024) (C : Fin 256), j = ix4 o1 o2 R C :=
    ⟨j 0, j 1, j 2, j 3, eq_ix4 j⟩
  obtain rfl : o1 = 0 := Subsingleton.elim _ _
  obtain rfl : o2 = 0 := Subsingleton.elim _ _
  show k0_pay1 (F := Ideal) (k0_pay3 (F := Ideal) (iblk m c 1 t)) (ix4 (0 : Fin 1) (0 : Fin 1) R C)
    = cons (V m c main_arg0) (((cfg0.win 3).blk t).view.emb (ix4 (0 : Fin 1) (0 : Fin 1) R C))
  refine (Cert.KPay.pay13_apply (iblk m c 1 t) R C).trans ?_
  unfold Cert.Spec.cons Cert.Spec.consAt
  -- under the block: the halves of the array's row and column, and their parities
  have hr : (win0_3.index t (2 : Fin 4) * 1024 + 1 * R.val) / 2 = win0_3.index t (2 : Fin 4) * 512 + R.val / 2 := by omega
  have hc : (win0_3.index t (3 : Fin 4) * 256 + 1 * C.val) / 2 = win0_3.index t (3 : Fin 4) * 128 + C.val / 2 := by omega
  refine consOf_congr (inBlock_apply m c t 0 _ _ _ ?_ ?_ ?_ ?_) (inBlock_apply m c t 1 _ _ _ ?_ ?_ ?_ ?_)
    (inBlock_apply m c t 2 _ _ _ ?_ ?_ ?_ ?_) ?_
  · rfl
  · rfl
  · exact hr
  · exact hc
  · rfl
  · rfl
  · exact hr
  · exact hc
  · rfl
  · rfl
  · exact hr
  · exact hc
  · exact (chanOf_block (win0_3.index t (2 : Fin 4)) (win0_3.index t (3 : Fin 4)) R.val C.val).symm

/-! ## The blocks cover the array -/

/-- An index of the array is in point t's block iff each coordinate is in the block's range on its axis. -/
theorem mem_blk (t : Fin cfg0.N) (i : S16x1x2048x2048.Idx) :
    i ∈ ((cfg0.win 3).blk t).view.set ↔ ∀ a : Fin 4, win0_3.index t a * S1x1x1024x256.size a ≤ (i a).val
      ∧ (i a).val < win0_3.index t a * S1x1x1024x256.size a + S1x1x1024x256.size a := by
  show i ∈ ((View.whole main_v0_1).slice (win0_3.rect t)).set ↔ _
  rw [View.set_slice_whole, Rect.mem_set_unit]
  exact Iff.rfl

/-- Index (b, 0, R, C) of the array lies in the block of the point with row tile R / 1024, column tile C / 256
    and batch b. -/
theorem cover (i : S16x1x2048x2048.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 2048 := (i 2).isLt
  have hi3 : (i 3).val < 2048 := (i 3).isLt
  have ht := index_onto ⟨(i 0).val, hi0⟩ ⟨(i 2).val / 1024, by omega⟩ ⟨(i 3).val / 256, by omega⟩
  generalize pointOf ⟨(i 0).val, hi0⟩ ⟨(i 2).val / 1024, by omega⟩ ⟨(i 3).val / 256, by omega⟩ = t at ht
  have q0 : win0_3.index t (0 : Fin 4) = (i 0).val := congrFun ht 0
  have q1 : win0_3.index t (1 : Fin 4) = 0 := congrFun ht 1
  have q2 : win0_3.index t (2 : Fin 4) = (i 2).val / 1024 := congrFun ht 2
  have q3 : win0_3.index t (3 : Fin 4) = (i 3).val / 256 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 256 ≤ (i 3).val ∧ (i 3).val < win0_3.index t (3 : Fin 4) * 256 + 256; omega

/-! ## The array after the run -/

/-- THE ARRAY after the run is the specification's second result of the argument array. -/
theorem final3 (c : Dev nD) :
    (dats m 0 c).arrAt 3 cfg0.N = Cert.Spec.cons (m ((c : Thread nD τ).loc main_arg0)) :=
  (dats m 0 c).arrAt_eq_of_cover 3 _ (fun t _ => flushed_eq m c t) cover

end Cert.KernelIdeal.Value3

end
-- ==== Proof.RefSpec.lean ====
/-
  The reference program's two results, read one element at a time, are the specification's two
  whole-array functions.

  First result. Position (b, ·, R, C) is read back through the broadcast and the reshape
  [16, 1024, 2, 1024, 2] → [16, 2048, 2048]: with L = (b·2048 + R)·2048 + C the five coordinates are
  (b, R / 2, R mod 2, C / 2, C mod 2). The transpose sends them to (b, C mod 2, R mod 2, R / 2, C / 2),
  and the reshape [16, 4, 1024, 1024] → [16, 2, 2, 1024, 1024] merges the two parities into the channel
  2·(C mod 2) + R mod 2.

  Second result. The same reshapes and transpose without the batch axis lead from (R, C) to position
  (2·(C mod 2) + R mod 2, R / 2, C / 2) of the stack of the four computed planes. The stack read at
  plane k is the k-th plane, and each plane at (r, c) is the stated expression in channels 0, 1, 2 of
  batch 0 at (r, c). The float literals stay bit patterns on both sides.
-/
import proofs.«119594_j61744449847330_1_alg».proof.Proof.Gen.ReferenceIdeal.Read
import proofs.«119594_j61744449847330_1_alg».proof.Proof.Spec
import Idealize.ShloMosaic.Lib.ValueIdx
import Idealize.ShloMosaic.Lib.Pipeline.Value

noncomputable section

namespace Cert.RefSpec

open Idealize.ShloMosaic Idealize.ShloMosaic.ValueIdx Cert.ReferenceIdeal Cert.ReferenceIdeal.Read Cert.Spec

/-! ## The first result -/

/-- The parity of a coordinate. -/
def parOf {n : Nat} (R : Fin n) : Fin 2 := ⟨R.val % 2, Nat.mod_lt _ (by decide)⟩

/-- The channel with column parity `q` and row parity `p`. -/
def chanPQ (p q : Fin 2) : Fin 4 := ⟨2 * q.val + p.val, by have := p.isLt; have := q.isLt; omega⟩

theorem chanPQ_parOf (R C : Fin 2048) : chanPQ (parOf R) (parOf C) = chanOf R.val C.val := rfl

/-- Position (b, ·, R, C) of the result, read back through the broadcast and the reshape of
    [16, 1024, 2, 1024, 2]: row R is row R / 2 with parity R mod 2, column C likewise. -/
theorem idx_v2_v3 (b : Fin 16) (o : Fin 1) (R C : Fin 2048) :
    idx_main_v2 (idx_main_v3 (ix4 b o R C))
      = ix5 b (halfOf (n := 1024) R) (parOf R) (halfOf (n := 1024) C) (parOf C) := by
  funext a
  match a with
  | ⟨0, _⟩ =>
    refine Fin.ext ?_
    have hb := b.isLt; have hR := R.isLt; have hC := C.isLt
    show ((b.val * 2048 + R.val) * 2048 + C.val) / 4194304 = b.val
    omega
  | ⟨1, _⟩ =>
    refine Fin.ext ?_
    have hb := b.isLt; have hR := R.isLt; have hC := C.isLt
    show ((b.val * 2048 + R.val) * 2048 + C.val) / 4096 % 1024 = R.val / 2
    omega
  | ⟨2, _⟩ =>
    refine Fin.ext ?_
    have hb := b.isLt; have hR := R.isLt; have hC := C.isLt
    show ((b.val * 2048 + R.val) * 2048 + C.val) / 2048 % 2 = R.val % 2
    omega
  | ⟨3, _⟩ =>
    refine Fin.ext ?_
    have hb := b.isLt; have hR := R.isLt; have hC := C.isLt
    show ((b.val * 2048 + R.val) * 2048 + C.val) / 2 % 1024 = C.val / 2
    omega
  | ⟨4, _⟩ =>
    refine Fin.ext ?_
    have hb := b.isLt; have hR := R.isLt; have hC := C.isLt
    show ((b.val * 2048 + R.val) * 2048 + C.val) % 2 = C.val % 2
    omega

/-- Position (b, r, p, c, q) before the transpose is position (b, q, p, r, c) after it, and the
    reshape of [16, 4, 1024, 1024] merges (q, p) into the channel 2·q + p. -/
theorem idx_v0_v1 (b : Fin 16) (r : Fin 1024) (p : Fin 2) (c : Fin 1024) (q : Fin 2) :
    idx_main_v0 (idx_main_v1 (ix5 b r p c q)) = ix4 b (chanPQ p q) r c := by
  funext a
  match a with
  | ⟨0, _⟩ =>
    refine Fin.ext ?_
    have hb := b.isLt; have hr := r.isLt; have hc := c.isLt; have hp := p.isLt; have hq := q.isLt
    show ((((b.val * 2 + q.val) * 2 + p.val) * 1024 + r.val) * 1024 + c.val) / 4194304 = b.val
    omega
  | ⟨1, _⟩ =>
    refine Fin.ext ?_
    have hb := b.isLt; have hr := r.isLt; have hc := c.isLt; have hp := p.isLt; have hq := q.isLt
    show ((((b.val * 2 + q.val) * 2 + p.val) * 1024 + r.val) * 1024 + c.val) / 1048576 % 4 = 2 * q.val + p.val
    omega
  | ⟨2, _⟩ =>
    refine Fin.ext ?_
    have hb := b.isLt; have hr := r.isLt; have hc := c.isLt; have hp := p.isLt; have hq := q.isLt
    show ((((b.val * 2 + q.val) * 2 + p.val) * 1024 + r.val) * 1024 + c.val) / 1024 % 1024 = r.val
    omega
  | ⟨3, _⟩ =>
    refine Fin.ext ?_
    have hb := b.isLt; have hr := r.isLt; have hc := c.isLt; have hp := p.isLt; have hq := q.isLt
    show ((((b.val * 2 + q.val) * 2 + p.val) * 1024 + r.val) * 1024 + c.val) % 1024 = c.val
    omega

/-- The first result at one position. -/
theorem v3_at (x : SIn.Idx → EReal) (b : Fin 16) (o : Fin 1) (R C : Fin 2048) :
    val_main_v3 (F := Ideal) x (ix4 b o R C) = unsqueezeAt x b R C := by
  rw [val_main_v3_apply, val_main_v2_apply, val_main_v1_apply, val_main_v0_apply, idx_v2_v3, idx_v0_v1,
    chanPQ_parOf]
  rfl

/-- The reference's first result is the specification's first function. -/
theorem v3_eq (x : (⟨S16x4x1024x1024, .f32⟩ : BufTy).Contents (Elt Ideal)) :
    val_main_v3 (F := Ideal) x = Cert.Spec.unsqueeze x := by
  funext j
  obtain ⟨b, o, R, C, rfl⟩ : ∃ b o R C, j = ix4 b o R C := ⟨j 0, j 1, j 2, j 3, eq_ix4 j⟩
  exact (v3_at x b o R C).trans (unsqueeze_ix4 x b o R C).symm

/-! ## The second result -/

/-- Position (·, ·, R, C) of the result, read back through the two broadcasts and the reshape of
    [1024, 2, 1024, 2]. -/
theorem idx_v33_v35 (b : Fin 16) (o : Fin 1) (R C : Fin 2048) :
    idx_main_v33 (idx_main_v34 (idx_main_v35 (ix4 b o R C)))
      = ix4 (halfOf (n := 1024) R) (parOf R) (halfOf (n := 1024) C) (parOf C) := by
  funext a
  match a with
  | ⟨0, _⟩ =>
    refine Fin.ext ?_
    have hR := R.isLt; have hC := C.isLt
    show (R.val * 2048 + C.val) / 4096 = R.val / 2
    omega
  | ⟨1, _⟩ =>
    refine Fin.ext ?_
    have hR := R.isLt; have hC := C.isLt
    show (R.val * 2048 + C.val) / 2048 % 2 = R.val % 2
    omega
  | ⟨2, _⟩ =>
    refine Fin.ext ?_
    have hR := R.isLt; have hC := C.isLt
    show (R.val * 2048 + C.val) / 2 % 1024 = C.val / 2
    omega
  | ⟨3, _⟩ =>
    refine Fin.ext ?_
    have hR := R.isLt; have hC := C.isLt
    show (R.val * 2048 + C.val) % 2 = C.val % 2
    omega

/-- Position (r, p, c, q) before the transpose is position (q, p, r, c) after it, and the reshape of
    [4, 1024, 1024] merges (q, p) into the plane 2·q + p. -/
theorem idx_v31_v32 (r : Fin 1024) (p : Fin 2) (c : Fin 1024) (q : Fin 2) :
    idx_main_v31 (idx_main_v32 (ix4 r p c q)) = ix3 (chanPQ p q) r c := by
  funext a
  match a with
  | ⟨0, _⟩ =>
    refine Fin.ext ?_
    have hr := r.isLt; have hc := c.isLt; have hp := p.isLt; have hq := q.isLt
    show (((q.val * 2 + p.val) * 1024 + r.val) * 1024 + c.val) / 1048576 = 2 * q.val + p.val
    omega
  | ⟨1, _⟩ =>
    refine Fin.ext ?_
    have hr := r.isLt; have hc := c.isLt; have hp := p.isLt; have hq := q.isLt
    show (((q.val * 2 + p.val) * 1024 + r.val) * 1024 + c.val) / 1024 % 1024 = r.val
    omega
  | ⟨2, _⟩ =>
    refine Fin.ext ?_
    have hr := r.isLt; have hc := c.isLt; have hp := p.isLt; have hq := q.isLt
    show (((q.val * 2 + p.val) * 1024 + r.val) * 1024 + c.val) % 1024 = c.val
    omega

/-- Plane position (r, c), read back through the reshape [1, 1, 1024, 1024] → [1024, 1024] and the
    slice of channel 0 of batch 0, is position (0, 0, r, c) of the argument. -/
theorem idx_slice0 (r c : Fin 1024) :
    idx_main_v4 (idx_main_v5 (ix2 r c)) = ix4 (0 : Fin 16) (0 : Fin 4) r c := by
  funext a
  match a with
  | ⟨0, _⟩ => rfl
  | ⟨1, _⟩ => rfl
  | ⟨2, _⟩ =>
    refine Fin.ext ?_
    have hr := r.isLt; have hc := c.isLt
    show (r.val * 1024 + c.val) / 1024 % 1024 = r.val
    omega
  | ⟨3, _⟩ =>
    refine Fin.ext ?_
    have hr := r.isLt; have hc := c.isLt
    show (r.val * 1024 + c.val) % 1024 = c.val
    omega

/-- Plane position (r, c), read back through the reshape [1, 1, 1024, 1024] → [1024, 1024] and the
    slice of channel 1 of batch 0, is position (0, 1, r, c) of the argument. -/
theorem idx_slice1 (r c : Fin 1024) :
    idx_main_v6 (idx_main_v7 (ix2 r c)) = ix4 (0 : Fin 16) (1 : Fin 4) r c := by
  funext a
  match a with
  | ⟨0, _⟩ => rfl
  | ⟨1, _⟩ => rfl
  | ⟨2, _⟩ =>
    refine Fin.ext ?_
    have hr := r.isLt; have hc := c.isLt
    show (r.val * 1024 + c.val) / 1024 % 1024 = r.val
    omega
  | ⟨3, _⟩ =>
    refine Fin.ext ?_
    have hr := r.isLt; have hc := c.isLt
    show (r.val * 1024 + c.val) % 1024 = c.val
    omega

/-- Plane position (r, c), read back through the reshape [1, 1, 1024, 1024] → [1024, 1024] and the
    slice of channel 2 of batch 0, is position (0, 2, r, c) of the argument. -/
theorem idx_slice2 (r c : Fin 1024) :
    idx_main_v8 (idx_main_v9 (ix2 r c)) = ix4 (0 : Fin 16) (2 : Fin 4) r c := by
  funext a
  match a with
  | ⟨0, _⟩ => rfl
  | ⟨1, _⟩ => rfl
  | ⟨2, _⟩ =>
    refine Fin.ext ?_
    have hr := r.isLt; have hc := c.isLt
    show (r.val * 1024 + c.val) / 1024 % 1024 = r.val
    omega
  | ⟨3, _⟩ =>
    refine Fin.ext ?_
    have hr := r.isLt; have hc := c.isLt
    show (r.val * 1024 + c.val) % 1024 = c.val
    omega

/-- Channel 0, 1, 2 of batch 0 as planes. -/
theorem v5_at (x : SIn.Idx → EReal) (r c : Fin 1024) :
    val_main_v5 (F := Ideal) x (ix2 r c) = x (ix4 (0 : Fin 16) (0 : Fin 4) r c) := by
  rw [val_main_v5_apply, val_main_v4_apply, idx_slice0]
theorem v7_at (x : SIn.Idx → EReal) (r c : Fin 1024) :
    val_main_v7 (F := Ideal) x (ix2 r c) = x (ix4 (0 : Fin 16) (1 : Fin 4) r c) := by
  rw [val_main_v7_apply, val_main_v6_apply, idx_slice1]
theorem v9_at (x : SIn.Idx → EReal) (r c : Fin 1024) :
    val_main_v9 (F := Ideal) x (ix2 r c) = x (ix4 (0 : Fin 16) (2 : Fin 4) r c) := by
  rw [val_main_v9_apply, val_main_v8_apply, idx_slice2]

/-- A plane broadcast to [1, 1024, 1024] is read at its own position. -/
theorem idx_plane (o : Fin 1) (r c : Fin 1024) : idx_main_v26 (ix3 o r c) = ix2 r c := by
  funext a
  match a with
  | ⟨0, _⟩ => rfl
  | ⟨1, _⟩ => rfl

/-- The four planes of the stack at (r, c). -/
theorem v26_at (o : Fin 1) (r c : Fin 1024) : val_main_v26 (F := Ideal) (ix3 o r c) = one := by
  rw [val_main_v26_apply, val_main_v10_apply, val_main_cst_apply]
  rfl

theorem v27_at (x : SIn.Idx → EReal) (o : Fin 1) (r c : Fin 1024) :
    val_main_v27 (F := Ideal) x (ix3 o r c)
      = Ideal.div (x (ix4 (0 : Fin 16) (0 : Fin 4) r c) + one) two := by
  rw [val_main_v27_apply, val_main_v14_apply, val_main_v12_apply, val_main_v13_apply, val_main_v11_apply,
    val_main_cst_1_apply, val_main_cst_0_apply]
  show Ideal.div (val_main_v5 (F := Ideal) x (ix2 r c) + one) two = _
  rw [v5_at]

theorem v28_at (x : SIn.Idx → EReal) (o : Fin 1) (r c : Fin 1024) :
    val_main_v28 (F := Ideal) x (ix3 o r c)
      = Ideal.div (x (ix4 (0 : Fin 16) (0 : Fin 4) r c) + x (ix4 (0 : Fin 16) (1 : Fin 4) r c) + one) three := by
  rw [val_main_v28_apply, val_main_v19_apply, val_main_v17_apply, val_main_v15_apply, val_main_v18_apply,
    val_main_v16_apply, val_main_cst_3_apply, val_main_cst_2_apply]
  show Ideal.div (val_main_v5 (F := Ideal) x (ix2 r c) + val_main_v7 (F := Ideal) x (ix2 r c) + one) three = _
  rw [v5_at, v7_at]

theorem v29_at (x : SIn.Idx → EReal) (o : Fin 1) (r c : Fin 1024) :
    val_main_v29 (F := Ideal) x (ix3 o r c)
      = Ideal.div (x (ix4 (0 : Fin 16) (0 : Fin 4) r c) + x (ix4 (0 : Fin 16) (1 : Fin 4) r c)
          + x (ix4 (0 : Fin 16) (2 : Fin 4) r c) + one) four := by
  rw [val_main_v29_apply, val_main_v25_apply, val_main_v23_apply, val_main_v21_apply, val_main_v20_apply,
    val_main_v24_apply, val_main_v22_apply, val_main_cst_5_apply, val_main_cst_4_apply]
  show Ideal.div (val_main_v5 (F := Ideal) x (ix2 r c) + val_main_v7 (F := Ideal) x (ix2 r c)
    + val_main_v9 (F := Ideal) x (ix2 r c) + one) four = _
  rw [v5_at, v7_at, v9_at]

/-- The stack of the four planes, read at plane `k`, is plane `k`. -/
theorem v30_at (x : SIn.Idx → EReal) (k : Fin 4) (r c : Fin 1024) :
    val_main_v30 (F := Ideal) x (ix3 k r c)
      = consOf (x (ix4 (0 : Fin 16) (0 : Fin 4) r c)) (x (ix4 (0 : Fin 16) (1 : Fin 4) r c))
          (x (ix4 (0 : Fin 16) (2 : Fin 4) r c)) k := by
  unfold val_main_v30
  match k with
  | ⟨0, _⟩ =>
    refine (concatenate_apply_piece (0 : Fin 3) _ _
    (ix3 (0 : Fin 4) r c) 0 (by show (0 : Nat) < 4; decide) S1x1024x1024 (val_main_v26 (F := Ideal)) rfl rfl 0 rfl (ix3 (0 : Fin 1) r c)
    (fun b => match b with
      | ⟨0, _⟩ => fun h => absurd rfl h
      | ⟨1, _⟩ => fun _ => rfl
      | ⟨2, _⟩ => fun _ => rfl) rfl).trans ?_
    exact v26_at 0 r c
  | ⟨1, _⟩ =>
    refine (concatenate_apply_piece (0 : Fin 3) _ _
    (ix3 (1 : Fin 4) r c) 1 (by show (1 : Nat) < 4; decide) S1x1024x1024 (val_main_v27 (F := Ideal) x) rfl rfl 1 rfl (ix3 (0 : Fin 1) r c)
    (fun b => match b with
      | ⟨0, _⟩ => fun h => absurd rfl h
      | ⟨1, _⟩ => fun _ => rfl
      | ⟨2, _⟩ => fun _ => rfl) rfl).trans ?_
    exact v27_at x 0 r c
  | ⟨2, _⟩ =>
    refine (concatenate_apply_piece (0 : Fin 3) _ _
    (ix3 (2 : Fin 4) r c) 2 (by show (2 : Nat) < 4; decide) S1x1024x1024 (val_main_v28 (F := Ideal) x) rfl rfl 2 rfl (ix3 (0 : Fin 1) r c)
    (fun b => match b with
      | ⟨0, _⟩ => fun h => absurd rfl h
      | ⟨1, _⟩ => fun _ => rfl
      | ⟨2, _⟩ => fun _ => rfl) rfl).trans ?_
    exact v28_at x 0 r c
  | ⟨3, _⟩ =>
    refine (concatenate_apply_piece (0 : Fin 3) _ _
    (ix3 (3 : Fin 4) r c) 3 (by show (3 : Nat) < 4; decide) S1x1024x1024 (val_main_v29 (F := Ideal) x) rfl rfl 3 rfl (ix3 (0 : Fin 1) r c)
    (fun b => match b with
      | ⟨0, _⟩ => fun h => absurd rfl h
      | ⟨1, _⟩ => fun _ => rfl
      | ⟨2, _⟩ => fun _ => rfl) rfl).trans ?_
    exact v29_at x 0 r c

/-- The second result at one position. -/
theorem v35_at (x : SIn.Idx → EReal) (b : Fin 16) (o : Fin 1) (R C : Fin 2048) :
    val_main_v35 (F := Ideal) x (ix4 b o R C) = consAt x R C := by
  rw [val_main_v35_apply, val_main_v34_apply, val_main_v33_apply, val_main_v32_apply, val_main_v31_apply,
    idx_v33_v35, idx_v31_v32, chanPQ_parOf, v30_at]
  rfl

/-- The reference's second result is the specification's second function. -/
theorem v35_eq (x : (⟨S16x4x1024x1024, .f32⟩ : BufTy).Contents (Elt Ideal)) :
    val_main_v35 (F := Ideal) x = Cert.Spec.cons x := by
  funext j
  obtain ⟨b, o, R, C, rfl⟩ : ∃ b o R C, j = ix4 b o R C := ⟨j 0, j 1, j 2, j 3, eq_ix4 j⟩
  exact (v35_at x b o R C).trans (cons_ix4 x b o R C).symm

end Cert.RefSpec

end
-- ==== Proof.lean ====
/-
  The certificate: a pixel-shuffle kernel against its array-level reference, over the extended reals.

  The argument is x : [16, 4, 1024, 1024]. The first result interleaves the four channels of every batch
  entry into one [2048, 2048] plane (channel 2·(C mod 2) + (R mod 2) lands at row R, column C); the second
  applies the same interleave to four planes computed from batch 0 alone — 1, (a₀ + 1) / 2, (a₀ + a₁ + 1) / 3,
  (a₀ + a₁ + a₂ + 1) / 4 — and repeats the plane over the batch axis (Proof/Spec.lean).

  The kernel computes both tile by tile on a grid of 2 × 8 × 16 points; the reference computes them on whole
  arrays. Both sides apply the same operations with the same literals, so the two agree element by element
  with no algebraic law beyond the index arithmetic of the tiling, and finiteness of the input is not used.

  * The frames of the kernel, at the word level and idealized: one pipelined region whose two input windows
    read the same array (Proof/KBody.lean, Proof/KRun.lean; Proof/KIBody.lean, Proof/KIRun.lean). The frame of
    the reference is its run with the results dropped.
  * The idealization rewrote nothing, so nothing is to be preserved.
  * The value claim: the kernel's run leaves each result array at the library's block-by-block overwrite of
    what the body stored; those are the specification's two functions of the argument (Proof/KPay.lean: the
    stored values at an index; Proof/KIValue2.lean, Proof/KIValue3.lean: from blocks to the array); the
    reference's two result terms are the same two functions (Proof/RefSpec.lean).
-/
import proofs.«119594_j61744449847330_1_alg».proof.Defs
import proofs.«119594_j61744449847330_1_alg».proof.Proof.Gen.Kernel
import proofs.«119594_j61744449847330_1_alg».proof.Proof.Gen.KernelIdeal
import proofs.«119594_j61744449847330_1_alg».proof.Proof.Gen.ReferenceIdeal
import proofs.«119594_j61744449847330_1_alg».proof.Proof.Gen.Pre_finite_inputs
import proofs.«119594_j61744449847330_1_alg».proof.Proof.Gen.ReferenceIdeal.Run
import proofs.«119594_j61744449847330_1_alg».proof.Proof.Gen.ReferenceIdeal.Read
import proofs.«119594_j61744449847330_1_alg».proof.Proof.KRun
import proofs.«119594_j61744449847330_1_alg».proof.Proof.KIRun
import proofs.«119594_j61744449847330_1_alg».proof.Proof.KIValue2
import proofs.«119594_j61744449847330_1_alg».proof.Proof.KIValue3
import proofs.«119594_j61744449847330_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_k : Cert.frame_Kernel :=
  fun m ρ _ => Cert.Kernel.Frame.frame (F := Bits) m ρ

/-- The idealized kernel runs and leaves its argument as launched. -/
theorem frame_ki : Cert.frame_KernelIdeal :=
  fun m ρ _ => Cert.KernelIdeal.Frame.frame (F := Ideal) m ρ

/-- The reference runs and leaves its argument as launched: its run, the results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The idealized kernel's run with each result array named: the interleave of the argument, and the
    interleave of the four planes of batch 0; the argument unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0_0)
            = Cert.Spec.unsqueeze (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v0_1)
            = Cert.Spec.cons (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  (θ_run (Cert.KernelIdeal.defs (F := Ideal)) _ _).mono
    (fun _ h c => ⟨(h c 2).trans (Cert.KernelIdeal.Value2.final2 m c),
      (h c 3).trans (Cert.KernelIdeal.Value3.final3 m c),
      ((h c 0).trans ((Cert.KernelIdeal.Frame.dats m 0 c).arrAt_in 0 rfl _)).trans (Cert.KernelIdeal.Frame.A_eq m c 0)⟩)
    (Cert.KernelIdeal.Frame.run_main (F := Ideal) m ρ)

/-- From memories that agree on the argument, the idealized kernel and the reference end with equal results:
    both are the specification's two functions of the argument. -/
theorem algebraic : Cert.algebraic_KernelIdeal_ReferenceIdeal := by
  intro m ρ m' ρ' _ hagree
  refine ⟨fun c => Cert.Spec.unsqueeze (m ((c.tc : Thread Cert.KernelIdeal.nD Cert.KernelIdeal.τ).loc Cert.KernelIdeal.main_arg0)),
    fun c => Cert.Spec.cons (m ((c.tc : Thread Cert.KernelIdeal.nD Cert.KernelIdeal.τ).loc Cert.KernelIdeal.main_arg0)), kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [hagree c]
    exact (Cert.ReferenceIdeal.Read.val_main_v3_eq _).trans (Cert.RefSpec.v3_eq _)
  · rw [hagree c]
    exact (Cert.ReferenceIdeal.Read.val_main_v35_eq _).trans (Cert.RefSpec.v35_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
